-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x256 : Shape := ⟨3, ![16, 4096, 256]⟩
abbrev S_ : Shape := ⟨0, ![]⟩

class Facts : Prop where
  bcast_S_S16x4096x256 : S_.BroadcastsInDim S16x4096x256 (![] : Fin 0 → Fin S16x4096x256.rank)
  reducesTo_S16x4096x256_S_d0_1_2 : S16x4096x256.ReducesTo [0, 1, 2] S_
  h_S_ : 0 < S_.numel

variable [Facts]

def fn {F : FTy → Type} [FloatOps F] (main_arg0 : FVec F S16x4096x256 .f32) (main_arg1 : FVec F S16x4096x256 .f32) : IVec S_ 1 :=
  let main_v0 : FVec F S16x4096x256 .f32 := Host.absf main_arg0
  let main_cst : FVec F S_ .f32 := constant S_ .f32 0x7F800000#32
  let main_v1 : FVec F S16x4096x256 .f32 := broadcastInDim S16x4096x256 ![] bcast_S_S16x4096x256 main_cst
  let main_v2 : IVec S16x4096x256 1 := cmpf .olt main_v0 main_v1
  let main_c : IVec S_ 1 := constantI S_ 1 1#1
  let main_v3 : IVec S_ 1 := (fun x v => Host.reduce IntOp.andi x v reducesTo_S16x4096x256_S_d0_1_2 h_S_) main_v2 main_c
  let main_v4 : FVec F S16x4096x256 .f32 := Host.absf main_arg1
  let main_cst_0 : FVec F S_ .f32 := constant S_ .f32 0x7F800000#32
  let main_v5 : FVec F S16x4096x256 .f32 := broadcastInDim S16x4096x256 ![] bcast_S_S16x4096x256 main_cst_0
  let main_v6 : IVec S16x4096x256 1 := cmpf .olt main_v4 main_v5
  let main_c_1 : IVec S_ 1 := constantI S_ 1 1#1
  let main_v7 : IVec S_ 1 := (fun x v => Host.reduce IntOp.andi x v reducesTo_S16x4096x256_S_d0_1_2 h_S_) main_v6 main_c_1
  let main_v8 : IVec S_ 1 := andi main_v3 main_v7
  main_v8
-- ==== Kernel.lean ====
abbrev S16x4096x256 : Shape := ⟨3, ![16, 4096, 256]⟩
abbrev S16x4096x1 : Shape := ⟨3, ![16, 4096, 1]⟩
abbrev S1x1024x256 : Shape := ⟨3, ![1, 1024, 256]⟩
abbrev S1x1024x1 : Shape := ⟨3, ![1, 1024, 1]⟩
abbrev S1x1024 : Shape := ⟨2, ![1, 1024]⟩
abbrev S16x4096 : Shape := ⟨2, ![16, 4096]⟩

abbrev nBuf : Space → Nat
  | .hbm => 4
  | .vmem => 6
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x4096x1, .f32⟩
  | .hbm, ⟨3, _⟩ => ⟨S16x4096, .f32⟩
  | .local _ .vmem, ⟨0, _⟩ => ⟨S1x1024x256, .f32⟩
  | .local _ .vmem, ⟨1, _⟩ => ⟨S1x1024x256, .f32⟩
  | .local _ .vmem, ⟨2, _⟩ => ⟨S1x1024x256, .f32⟩
  | .local _ .vmem, ⟨3, _⟩ => ⟨S1x1024x256, .f32⟩
  | .local _ .vmem, ⟨4, _⟩ => ⟨S1x1024x1, .f32⟩
  | .local _ .vmem, ⟨5, _⟩ => ⟨S1x1024x1, .f32⟩
  | _, _ => ⟨S16x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1024x256_S1x1024x256_0_0_0 : ∀ a, (![0, 0, 0] : Fin 3 → Nat) a + S1x1024x256.size a ≤ S1x1024x256.size a
  h_S1x1024x256 : 0 < S1x1024x256.numel
  reduces_S1x1024x256_S1x1024 : S1x1024x256.Reduces [2] S1x1024
  shapeCasts_S1x1024_S1x1024x1 : S1x1024.ShapeCasts S1x1024x1
  broadcasts_S1x1024x1_S1x1024x256 : S1x1024x1.Broadcasts S1x1024x256
  inb_S1x1024x1_S1x1024x1_0_0_0 : ∀ a, (![0, 0, 0] : Fin 3 → Nat) a + S1x1024x1.size a ≤ S1x1024x1.size a
  h_S1x1024x1 : 0 < S1x1024x1.numel
  shapeCasts_S16x4096x1_S16x4096 : S16x4096x1.ShapeCasts S16x4096
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x256.size a ≤ S16x4096x256.size a
  hwx0_0 : ∀ i : grid0.Coords, EltTy.bits .f32 = 32 ∨ (Rect.block (s := S16x4096x256) S1x1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x256.size a ≤ S16x4096x256.size a
  hwx0_1 : ∀ i : grid0.Coords, EltTy.bits .f32 = 32 ∨ (Rect.block (s := S16x4096x256) S1x1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x1.size a ≤ S16x4096x1.size a
  hwx0_2 : ∀ i : grid0.Coords, EltTy.bits .f32 = 32 ∨ (Rect.block (s := S16x4096x1) S1x1024x1.size (cc0_transform_2 i) (hinb0_2 i)).WholeWords (EltTy.packing .f32)

variable [Facts₀]

abbrev win0_0 : Pipeline.Window sig grid0 :=
  Pipeline.Window.ofSpec (Memref.whole main_arg0) S1x1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x256 : Shape := ⟨3, ![16, 4096, 256]⟩
abbrev S_ : Shape := ⟨0, ![]⟩
abbrev S16x4096 : Shape := ⟨2, ![16, 4096]⟩
abbrev S16x4096x1 : Shape := ⟨3, ![16, 4096, 1]⟩

abbrev nBuf : Space → Nat
  | .hbm => 25
  | .vmem => 0
  | .smem => 0
  | _ => 0

abbrev bufTy : (tb : Table) → Fin (tcTables nBuf tb) → BufTy
  | .hbm, ⟨0, _⟩ => ⟨S16x4096x256, .f32⟩
  | .hbm, ⟨1, _⟩ => ⟨S16x4096x256, .f32⟩
  | .hbm, ⟨2, _⟩ => ⟨S16x4096x256, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S_, .f32⟩
  | .hbm, ⟨7, _⟩ => ⟨S16x4096x1, .f32⟩
  | .hbm, ⟨8, _⟩ => ⟨S16x4096x1, .f32⟩
  | .hbm, ⟨9, _⟩ => ⟨S16x4096x1, .f32⟩
  | .hbm, ⟨10, _⟩ => ⟨S16x4096x256, .f32⟩
  | .hbm, ⟨11, _⟩ => ⟨S16x4096x256, .f32⟩
  | .hbm, ⟨12, _⟩ => ⟨S16x4096x256, .f32⟩
  | .hbm, ⟨13, _⟩ => ⟨S_, .f32⟩
  | .hbm, ⟨14, _⟩ => ⟨S16x4096, .f32⟩
  | .hbm, ⟨15, _⟩ => ⟨S16x4096x1, .f32⟩
  | .hbm, ⟨16, _⟩ => ⟨S_, .f32⟩
  | .hbm, ⟨17, _⟩ => ⟨S16x4096x1, .f32⟩
  | .hbm, ⟨18, _⟩ => ⟨S16x4096x1, .f32⟩
  | .hbm, ⟨19, _⟩ => ⟨S16x4096x1, .f32⟩
  | .hbm, ⟨20, _⟩ => ⟨S16x4096x256, .f32⟩
  | .hbm, ⟨21, _⟩ => ⟨S16x4096x256, .f32⟩
  | .hbm, ⟨22, _⟩ => ⟨S16x4096x256, .f32⟩
  | .hbm, ⟨23, _⟩ => ⟨S_, .f32⟩
  | .hbm, ⟨24, _⟩ => ⟨S16x4096, .f32⟩
  | _, _ => ⟨S16x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S16x4096x256_S16x4096_d2 : S16x4096x256.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x256_0_1_2 : S16x4096x1.BroadcastsInDim S16x4096x256 (![0, 1, 2] : Fin 3 → Fin S16x4096x256.rank)

variable [Facts₀]

class Facts : Prop extends Facts₀ where

variable [Facts]
-- ==== Proof.RowCosine.lean ====
/-
  The mathematics of this certificate: the cosine of two rows.

  For two arrays `X`, `Y` of shape [B, N, D] over the extended reals and a row (b, r), write
    |X|²(b, r)   = Σ_k X(b, r, k)²                                  (`sqNorm`)
    1/‖X‖(b, r)  = rsqrt (max (|X|²(b, r)) ε)                        (`invNorm`; ε is the float 1e-12's exact binary value)
    cos(b, r)    = Σ_k (X(b, r, k) · 1/‖X‖(b, r)) · (Y(b, r, k) · 1/‖Y‖(b, r))   (`cosine`)
  Both programs compute `cosine` of the two argument arrays at every row, in this order of operations: the
  kernel one block of 1024 rows at a time, the reference on the whole arrays. No algebraic law is needed beyond
  `0 + s = s` for the host sum's initial value, so nothing here asks the entries to be finite.

  What makes the blockwise computation the whole one is LOCALITY: `cosine X Y b r` reads only row (b, r) of `X` and of
  `Y`, so two pairs of arrays that agree on a row have the same cosine there (`cosine_congr`), whatever their
  extents along the first two axes.
-/
import Idealize.ShloMosaic.PureOps.Ideal
import Idealize.ShloMosaic.Lib.ValueIdx

noncomputable section

open scoped BigOperators

namespace Cert.RowCosine

open Idealize.ShloMosaic Idealize.ShloMosaic.ValueIdx

variable {B N B' N' D : Nat}

/-- The guard under the square root: the float `1e-12`, at its exact binary value. -/
abbrev eps : EReal := Ideal.ofBits .f32 0x2B8CBCCC#32

/-- The sum of the squares of row (b, r). -/
def sqNorm (X : (⟨3, ![B, N, D]⟩ : Shape).Idx → EReal) (b : Fin B) (r : Fin N) : EReal :=
  ∑ k : Fin D, X (ix3 b r k) * X (ix3 b r k)

/-- The reciprocal of the row's guarded norm. -/
def invNorm (X : (⟨3, ![B, N, D]⟩ : Shape).Idx → EReal) (b : Fin B) (r : Fin N) : EReal :=
  Ideal.rsqrt (max (sqNorm X b r) eps)

/-- The cosine of row (b, r) of `X` and row (b, r) of `Y`: the inner product of the two normalised rows. -/
def cosine (X Y : (⟨3, ![B, N, D]⟩ : Shape).Idx → EReal) (b : Fin B) (r : Fin N) : EReal :=
  ∑ k : Fin D, (X (ix3 b r k) * invNorm X b r) * (Y (ix3 b r k) * invNorm Y b r)

/-- The sum of squares reads its row only. -/
theorem sqNorm_congr (X : (⟨3, ![B, N, D]⟩ : Shape).Idx → EReal) (X' : (⟨3, ![B', N', D]⟩ : Shape).Idx → EReal)
    (b : Fin B) (r : Fin N) (b' : Fin B') (r' : Fin N') (h : ∀ k : Fin D, X' (ix3 b' r' k) = X (ix3 b r k)) :
    sqNorm X' b' r' = sqNorm X b r := by
  unfold sqNorm
  exact Finset.sum_congr rfl fun k _ => by rw [h k]

/-- So does the reciprocal norm. -/
theorem invNorm_congr (X : (⟨3, ![B, N, D]⟩ : Shape).Idx → EReal) (X' : (⟨3, ![B', N', D]⟩ : Shape).Idx → EReal)
    (b : Fin B) (r : Fin N) (b' : Fin B') (r' : Fin N') (h : ∀ k : Fin D, X' (ix3 b' r' k) = X (ix3 b r k)) :
    invNorm X' b' r' = invNorm X b r := by
  unfold invNorm
  rw [sqNorm_congr X X' b r b' r' h]

/-- LOCALITY: two pairs of arrays that agree on a row have the same cosine there. -/
theorem cosine_congr (X Y : (⟨3, ![B, N, D]⟩ : Shape).Idx → EReal) (X' Y' : (⟨3, ![B', N', D]⟩ : Shape).Idx → EReal)
    (b : Fin B) (r : Fin N) (b' : Fin B') (r' : Fin N')
    (hX : ∀ k : Fin D, X' (ix3 b' r' k) = X (ix3 b r k)) (hY : ∀ k : Fin D, Y' (ix3 b' r' k) = Y (ix3 b r k)) :
    cosine X' Y' b' r' = cosine X Y b r := by
  unfold cosine
  rw [invNorm_congr X X' b r b' r' hX, invNorm_congr Y Y' b r b' r' hY]
  exact Finset.sum_congr rfl fun k _ => by rw [hX k, hY k]

end Cert.RowCosine

end
-- ==== Proof.LibRank3Keepdims.lean ====
/-
  A rank-3 tile [a, b, c] reduced along its LAST axis with the axis kept (`jnp.sum(x, axis=-1, keepdims=True)`), read at an
  index written by coordinates: the pieces such a reduction is lowered to, one lemma each.

    • the lane sum [a, b, c] → [a, b] at (i, j) is the plain sum over k of the operand at (i, j, k), at the ideal values
      (`laneSum_apply`);
    • the cast that gives the sum its trailing unit axis back, [a, b] → [a, b, 1], reads (i, j, u) at (i, j)
      (`shapeCast_ab_ab1_apply`), and the cast that drops it, [a, b, 1] → [a, b], reads (i, j) at (i, j, 0)
      (`shapeCast_ab1_ab_apply`): row-major positions do not see an axis of extent one;
    • a column [a, b, 1] broadcast along the last axis to [a, b, c] reads (i, j, k) at (i, j, 0)
      (`broadcastTo_ab1_abc_apply`).
  All extents are generic; the indices are the literal-coordinate constructors `ix2` / `ix3`, so a lemma applies to a printed
  operation by unification.
-/
import Idealize.ShloMosaic.PureOps.Ideal
import Idealize.ShloMosaic.PureOps.Ideal.Laws
import Idealize.ShloMosaic.Lib.ValueIdx
import Idealize.ShloMosaic.Lib.Pipeline.Value

noncomputable section

open scoped BigOperators

namespace Cert.Rank3Keepdims

open Idealize.ShloMosaic Idealize.ShloMosaic.ValueIdx

variable {α : Type}

/-- The sum along the last axis of an `[a, b, c]` tile, at the ideal values, read at `(i, j)`: the sum over `k` of the
    operand at `(i, j, k)`. The accumulator word and the two side conditions are whatever the printed operation carries. -/
theorem laneSum_apply {a b c : ℕ} {φ : FTy} (v : FVec Ideal (⟨3, ![a, b, c]⟩ : Shape) φ) (acc : BitVec φ.bits)
    (h : (⟨3, ![a, b, c]⟩ : Shape).Reduces [(2 : Fin 3)] ⟨2, ![a, b]⟩) (hφ : FKind.Formats φ) (hacc : acc = FKind.add.neutral φ hφ)
    (i : Fin a) (j : Fin b) :
    multiReduction (F := Ideal) .add [(2 : Fin 3)] ⟨2, ![a, b]⟩ v acc h hφ hacc (ix2 i j) = ∑ k : Fin c, v (ix3 i j k) := by
  refine (Ideal.multiReduction_add_single v acc h hφ hacc (ix2 i j)).trans ?_
  refine Finset.sum_congr rfl fun k _ => congrArg v ?_
  exact funext fun ax => Fin.ext (by match ax with | ⟨0, _⟩ => rfl | ⟨1, _⟩ => rfl | ⟨2, _⟩ => rfl)

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_three, Shape.rowMajor_val_two]
    show (i.val * b + j.val) * 1 + 0 = i.val * b + j.val
    rw [Nat.mul_one, Nat.add_zero])

/-- An `[a, b, 1]` column broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

end Cert.Rank3Keepdims

end
-- ==== Proof.BlockRows.lean ====
/-
  One grid point of the kernel: what the body stores, row by row.

  The body loads a block of 1024 rows of each argument, `x0` and `x1` (shape [1, 1024, 256]), and stores one number per
  row (shape [1, 1024, 1]). Its arithmetic is three stages, named here:
    • `keepSum v`: the sum of `v` along the last axis, the axis kept with extent one;
    • `recipNorm x = rsqrt (max (keepSum (x · x)) ε)`: the reciprocal of each row's guarded norm;
    • `unitRows x = x · recipNorm x` broadcast along the row: every row scaled to unit length;
  and the stored value is `keepSum (unitRows x0 · unitRows x1)` (`payload_eq`, by unfolding). Read at row r these are
  the row's sum, `RowCosine.invNorm`, the scaled entry, and `RowCosine.cosine` of the two blocks (`payload_apply`).
-/
import proofs.«153015_j70617852280973_1_alg».proof.Proof.Gen.KernelIdeal.Skeleton
import proofs.«153015_j70617852280973_1_alg».proof.Proof.RowCosine
import proofs.«153015_j70617852280973_1_alg».proof.Proof.LibRank3Keepdims
import Idealize.ShloMosaic.Lib.ValueIdx

noncomputable section

open scoped BigOperators

namespace Cert.KernelIdeal.BlockRows

open Cert.KernelIdeal Cert.KernelIdeal.Gen Idealize.ShloMosaic Idealize.ShloMosaic.ValueIdx Cert.RowCosine Cert.Rank3Keepdims

/-- A block of 1024 rows, at the ideal values. -/
abbrev Blk : Type := FVec Ideal S1x1024x256 .f32
/-- One number per row of a block. -/
abbrev Col : Type := FVec Ideal S1x1024x1 .f32

/-- The sum along the last axis, the axis kept. -/
def keepSum (v : Blk) : Col :=
  shapeCast S1x1024x1 (multiReduction (F := Ideal) .add [2] S1x1024 v 0x00000000#32 reduces_S1x1024x256_S1x1024 (.inl rfl) rfl) shapeCasts_S1x1024_S1x1024x1

/-- The reciprocal of each row's guarded norm. -/
def recipNorm (x : Blk) : Col :=
  rsqrt (maximumf (keepSum (mulf x x)) (broadcast S1x1024x1 (Scalar.ofBits (F := Ideal) .f32 0x2B8CBCCC#32)))

/-- Every row scaled by the reciprocal of its guarded norm. -/
def unitRows (x : Blk) : Blk :=
  mulf x (broadcastTo S1x1024x256 (recipNorm x) broadcasts_S1x1024x1_S1x1024x256)

/-- The body's stored value is the kept sum of the product of the two blocks' unit rows. -/
theorem payload_eq (x0 x1 : Blk) : k0_pay1 (F := Ideal) x0 x1 = keepSum (mulf (unitRows x0) (unitRows x1)) := rfl

/-- The kept sum at row r is the sum of the row. -/
theorem keepSum_apply (v : Blk) (z : Fin 1) (r : Fin 1024) (u : Fin 1) :
    keepSum v (ix3 z r u) = ∑ k : Fin 256, v (ix3 z r k) := by
  unfold keepSum
  refine (shapeCast_ab_ab1_apply _ shapeCasts_S1x1024_S1x1024x1 z r u).trans ?_
  exact laneSum_apply v 0x00000000#32 reduces_S1x1024x256_S1x1024 (.inl rfl) rfl z r

/-- The reciprocal norm at row r. -/
theorem recipNorm_apply (x : Blk) (z : Fin 1) (r : Fin 1024) (u : Fin 1) :
    recipNorm x (ix3 z r u) = invNorm (B := 1) (N := 1024) (D := 256) x z r := by
  show Ideal.rsqrt (max (keepSum (mulf x x) (ix3 z r u)) (Ideal.ofBits .f32 0x2B8CBCCC#32)) = _
  rw [keepSum_apply]
  rfl

/-- An entry of the unit rows. -/
theorem unitRows_apply (x : Blk) (z : Fin 1) (r : Fin 1024) (k : Fin 256) :
    unitRows x (ix3 z r k) = x (ix3 z r k) * invNorm (B := 1) (N := 1024) (D := 256) x z r := by
  show x (ix3 z r k) * broadcastTo S1x1024x256 (recipNorm x) broadcasts_S1x1024x1_S1x1024x256 (ix3 z r k) = _
  rw [broadcastTo_ab1_abc_apply (recipNorm x) broadcasts_S1x1024x1_S1x1024x256 z r k, recipNorm_apply]

/-- THE BLOCK'S VALUE: what the body stores at row r is the cosine of row r of the two blocks. -/
theorem payload_apply (x0 x1 : Blk) (z : Fin 1) (r : Fin 1024) (u : Fin 1) :
    k0_pay1 (F := Ideal) x0 x1 (ix3 z r u) = cosine (B := 1) (N := 1024) (D := 256) x0 x1 z r := by
  rw [payload_eq, keepSum_apply]
  unfold cosine
  refine Finset.sum_congr rfl fun k _ => ?_
  show unitRows x0 (ix3 z r k) * unitRows x1 (ix3 z r k) = _
  rw [unitRows_apply, unitRows_apply]

end Cert.KernelIdeal.BlockRows

end
-- ==== Proof.ArrayRows.lean ====
/-
  From blocks to the array.

  The grid is 16 × 4 points. Point (p, q) reads rows [1024 q, 1024 q + 1024) of batch p of each argument and writes the
  same rows of batch p of the result, whose last axis has extent one. Each index of the result lies in exactly the block
  of the point (its batch, its row / 1024), so the blocks cover the result; and since the cosine of a row reads that row
  only (`RowCosine.cosine_congr`), the number point (p, q) stores for its row r is the cosine of row 1024 q + r of
  batch p of the whole arguments. Hence the result array ends holding, at (b, r, 0), the cosine of row (b, r).

  After the region the program drops the unit axis (a reshape [16, 4096, 1] → [16, 4096], which moves no element), so
  what it returns holds at (b, r) the cosine of row (b, r) of its arguments: `run`.
-/
import proofs.«153015_j70617852280973_1_alg».proof.Proof.Gen.KernelIdeal.Frame
import proofs.«153015_j70617852280973_1_alg».proof.Proof.BlockRows
import Idealize.ShloMosaic.Lib.Pipeline.Value
import Idealize.ShloMosaic.Lib.StableHlo.Run

set_option maxRecDepth 16384

noncomputable section

open scoped BigOperators

namespace Cert.KernelIdeal.ArrayRows

open Cert.KernelIdeal Cert.KernelIdeal.Gen Cert.KernelIdeal.BlockRows
open Idealize.ShloMosaic Idealize.ShloMosaic.TcCoe Idealize.ShloMosaic.ValueIdx Idealize.SL.Sem Cert.RowCosine Cert.Rank3Keepdims Idealize.ShloMosaic.StableHlo

variable (m : (ℓ : Loc nD τ sig) → Buf (Elt Ideal) ℓ) (ρ : Dev nD → PrngReg)

/-- A whole argument array, at the ideal values. -/
abbrev Arr : Type := FVec Ideal S16x4096x256 .f32

/-- The two arguments as the region finds them, and their blocks at a point, at their literal types. -/
abbrev arrA (c : Dev nD) : Arr := V m c main_arg0
abbrev arrB (c : Dev nD) : Arr := V m c main_arg1
abbrev blkA (c : Dev nD) (t : Fin cfg0.N) : Blk := iblk m c 0 t
abbrev blkB (c : Dev nD) (t : Fin cfg0.N) : Blk := iblk m c 1 t

/-- The result with its unit last axis: at (b, r, 0) the cosine of row (b, r). -/
abbrev colOf (A Bm : Arr) : S16x4096x1.Idx → EReal :=
  fun i => cosine (B := 16) (N := 4096) (D := 256) A Bm (i 0) (i 1)

theorem hz : (![0, 0, 0] : Fin 3 → Nat) = fun _ => 0 := funext fun a => by fin_cases a <;> rfl

/-- The printed index maps, decided over the grid: the three windows move together along the first two axes and
    stay at block 0 along the last; the result's block indices stay in range. -/
theorem idx_facts : ∀ t : Fin cfg0.N,
    win0_0.index t (0 : Fin 3) = win0_2.index t (0 : Fin 3) ∧ win0_0.index t (1 : Fin 3) = win0_2.index t (1 : Fin 3)
    ∧ win0_0.index t (2 : Fin 3) = 0
    ∧ win0_1.index t (0 : Fin 3) = win0_2.index t (0 : Fin 3) ∧ win0_1.index t (1 : Fin 3) = win0_2.index t (1 : Fin 3)
    ∧ win0_1.index t (2 : Fin 3) = 0
    ∧ win0_2.index t (0 : Fin 3) ≤ 15 ∧ win0_2.index t (1 : Fin 3) ≤ 3 ∧ win0_2.index t (2 : Fin 3) = 0 :=
  (by decide +kernel : ∀ t : Fin grid0.N, _)

/-- Every (batch, group of 1024 rows) is some point's block. -/
theorem idx_onto : ∀ (q0 : Fin 16) (q1 : Fin 4), ∃ t : Fin cfg0.N, win0_2.index t = ![q0.val, q1.val, 0] :=
  (by decide +kernel : ∀ (q0 : Fin 16) (q1 : Fin 4), ∃ t : Fin grid0.N, win0_2.index t = ![q0.val, q1.val, 0])

/-- What the body stores at a row of its block is the cosine of any row of any arrays that the blocks' rows are. -/
theorem stored_row (x0 x1 : Blk) (A Bm : Arr) (y : S1x1024x1.Idx) (b : Fin 16) (r : Fin 4096)
    (h0 : ∀ k : Fin 256, x0 (ix3 (y 0) (y 1) k) = A (ix3 b r k))
    (h1 : ∀ k : Fin 256, x1 (ix3 (y 0) (y 1) k) = Bm (ix3 b r k)) :
    k0_pay1 (F := Ideal) x0 x1 y = cosine (B := 16) (N := 4096) (D := 256) A Bm b r := by
  obtain ⟨z, r', u, rfl⟩ : ∃ (z : Fin 1) (r' : Fin 1024) (u : Fin 1), y = ix3 z r' u := ⟨y 0, y 1, y 2, eq_ix3 y⟩
  rw [payload_apply]
  exact cosine_congr A Bm x0 x1 b r z r' h0 h1

/-- WHAT POINT `t` WRITES BACK is block `t` of the row cosines of the argument arrays as the region finds them. -/
theorem flushed_eq (c : Dev nD) (t : Fin cfg0.N) :
    (dats m 0 c).flushed 2 t = ((cfg0.win 2).blk t).view.read (Elt Ideal) (colOf (arrA m c) (arrB m c)) := by
  show (cfg0.win 2).cut (grid0.coords t) ((dats m 0 c).after 2 t) = _
  rw [after0_2]
  unfold out0_2
  rw [View.canon_unit_zero hz]
  simp only [View.ld_unit_zero (S := S1x1024x256) hz]
  obtain ⟨e0, e1, e2, e3, e4, e5, e6, e7, e8⟩ := idx_facts t
  funext j
  show k0_pay1 (F := Ideal) (blkA m c t) (blkB m c t) j
    = cosine (B := 16) (N := 4096) (D := 256) (arrA m c) (arrB m c) ((((cfg0.win 2).blk t).view.emb j) 0) ((((cfg0.win 2).blk t).view.emb j) 1)
  refine stored_row (blkA m c t) (blkB m c t) (arrA m c) (arrB m c) j _ _ (fun k => ?_) (fun k => ?_)
  · show arrA m c (((cfg0.win 0).blk t).view.emb (ix3 (j 0) (j 1) k)) = arrA m c _
    refine congrArg (arrA m c) (funext fun a => Fin.ext ?_)
    match a with
    | ⟨0, _⟩ => show win0_0.index t (0 : Fin 3) * 1 + 1 * (j 0).val = win0_2.index t (0 : Fin 3) * 1 + 1 * (j 0).val; omega
    | ⟨1, _⟩ => show win0_0.index t (1 : Fin 3) * 1024 + 1 * (j 1).val = win0_2.index t (1 : Fin 3) * 1024 + 1 * (j 1).val; omega
    | ⟨2, _⟩ => show win0_0.index t (2 : Fin 3) * 256 + 1 * k.val = k.val; omega
  · show arrB m c (((cfg0.win 1).blk t).view.emb (ix3 (j 0) (j 1) k)) = arrB m c _
    refine congrArg (arrB m c) (funext fun a => Fin.ext ?_)
    match a with
    | ⟨0, _⟩ => show win0_1.index t (0 : Fin 3) * 1 + 1 * (j 0).val = win0_2.index t (0 : Fin 3) * 1 + 1 * (j 0).val; omega
    | ⟨1, _⟩ => show win0_1.index t (1 : Fin 3) * 1024 + 1 * (j 1).val = win0_2.index t (1 : Fin 3) * 1024 + 1 * (j 1).val; omega
    | ⟨2, _⟩ => show win0_1.index t (2 : Fin 3) * 256 + 1 * k.val = k.val; omega

/-- An index of the result is in point `t`'s block iff each coordinate is in the block's range on its axis. -/
theorem mem_blk (t : Fin cfg0.N) (i : S16x4096x1.Idx) :
    i ∈ ((cfg0.win 2).blk t).view.set ↔ ∀ a : Fin 3, win0_2.index t a * S1x1024x1.size a ≤ (i a).val ∧ (i a).val < win0_2.index t a * S1x1024x1.size a + S1x1024x1.size a := by
  show i ∈ ((View.whole main_v0).slice (win0_2.rect t)).set ↔ _
  rw [View.set_slice_whole, Rect.mem_set_unit]
  exact Iff.rfl

/-- THE COVER: every index of the result is in the block of the point (its batch, its row / 1024). -/
theorem cover (i : S16x4096x1.Idx) : ∃ t : Fin cfg0.N, (cfg0.win 2).flush t = true ∧ i ∈ ((cfg0.win 2).blk t).view.set := by
  have hi0 : (i 0).val < 16 := (i 0).isLt
  have hi1 : (i 1).val < 4096 := (i 1).isLt
  have hi2 : (i 2).val < 1 := (i 2).isLt
  obtain ⟨t, ht⟩ := idx_onto ⟨(i 0).val, hi0⟩ ⟨(i 1).val / 1024, by omega⟩
  have q0 : win0_2.index t (0 : Fin 3) = (i 0).val := congrFun ht 0
  have q1 : win0_2.index t (1 : Fin 3) = (i 1).val / 1024 := congrFun ht 1
  have q2 : win0_2.index t (2 : Fin 3) = 0 := congrFun ht 2
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1024 ≤ (i 1).val ∧ (i 1).val < win0_2.index t (1 : Fin 3) * 1024 + 1024; omega
  | ⟨2, _⟩ => show win0_2.index t (2 : Fin 3) * 1 ≤ (i 2).val ∧ (i 2).val < win0_2.index t (2 : Fin 3) * 1 + 1; omega

/-- THE RESULT ARRAY after the region: the row cosines of the arguments, on a unit last axis. -/
theorem final (c : Dev nD) : (dats m 0 c).arrAt 2 cfg0.N = colOf (arrA m c) (arrB m c) :=
  (dats m 0 c).arrAt_eq_of_cover 2 (colOf (arrA m c) (arrB m c)) (fun t _ => flushed_eq m c t) cover

/-- What the program returns: at (b, r) the cosine of row (b, r). -/
abbrev rowsOf (A Bm : Arr) : S16x4096.Idx → EReal :=
  fun i => cosine (B := 16) (N := 4096) (D := 256) A Bm (i 0) (i 1)

/-- The line after the region drops the result's unit axis: it reads the region's result array, which holds the row
    cosines on that axis (`final`), at (b, r, 0). -/
theorem tail_eq (c : Dev nD) :
    Pipeline.afterTail₀ cfgs (dats m) 0 (V0 m) [hostOps1] c main_v1 = rowsOf (arrA m c) (arrB m c) := by
  unfold Pipeline.afterTail₀
  show StableHlo.after hostOps1 _ (Proc.devRef .tc main_v1) = _
  after_results
  have e : Pipeline.withArrays (cfgs 0).spec c (V0 m c) (fun w => (dats m 0 c).arrAt w (cfgs 0).N) (Proc.devRef .tc main_v0)
      = colOf (arrA m c) (arrB m c) :=
    (Pipeline.withArrays_arr spec0 launch0.win.arr_inj c _ _ 2).trans (final m c)
  rw [e]
  funext i
  obtain ⟨b, r, rfl⟩ : ∃ (b : Fin 16) (r : Fin 4096), i = ix2 b r := ⟨i 0, i 1, eq_ix2 i⟩
  exact shapeCast_ab1_ab_apply (colOf (arrA m c) (arrB m c)) shapeCasts_S16x4096x1_S16x4096 b r

/-- THE KERNEL'S RUN, read: every weakly fair execution terminates with the result at the row cosines of the
    arguments and the arguments unchanged. -/
theorem run : θ_run defs (onTc (τ := τ) (main (F := Ideal))) ⟨m, fun _ => 0, ρ⟩ fun r => ∀ c : Dev nD,
      r.2.mem ((c.tc : Thread nD τ).loc main_v1)
        = rowsOf (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v1 (Pipeline.mem_restRefs_of main_v1 rfl (by decide))).trans (tail_eq m c),
       ((h c).1 0).trans (((dats m 0 c).arrAt_in 0 rfl _).trans ((A_eq m c 0).trans (V_main_arg0 m c))),
       ((h c).1 1).trans (((dats m 0 c).arrAt_in 1 rfl _).trans ((A_eq m c 1).trans (V_main_arg1 m c)))⟩)
    (run_main m ρ)

end Cert.KernelIdeal.ArrayRows

end
-- ==== Proof.ReferenceRows.lean ====
/-
  The reference, row by row: its last stage is the row cosine of its two arguments.

  The reference squares each array, sums the squares along the last axis from the initial value 0 (so the sum itself:
  `0 + s = s`), guards the sum from below by ε, takes the reciprocal square root, scales every entry of the row by
  it, multiplies the two scaled arrays entry by entry and sums along the last axis again. Read at a row (b, r),
  stage by stage, that is `RowCosine.cosine` of the two arguments.
-/
import proofs.«153015_j70617852280973_1_alg».proof.Proof.Gen.ReferenceIdeal.Read
import proofs.«153015_j70617852280973_1_alg».proof.Proof.RowCosine
import Idealize.ShloMosaic.Lib.ValueIdx
import Idealize.ShloMosaic.PureOps.Ideal.Laws

noncomputable section

open scoped BigOperators

namespace Cert.ReferenceIdeal.Rows

open Cert.ReferenceIdeal Cert.ReferenceIdeal.Read Idealize.ShloMosaic Idealize.ShloMosaic.ValueIdx Cert.RowCosine

/-- A whole argument array. -/
abbrev Arr : Type := (⟨S16x4096x256, .f32⟩ : BufTy).Contents (Elt Ideal)

/-! ### The indices the stages read at, by coordinates -/

theorem idx_v1 (b : Fin 16) (r : Fin 4096) (k : Fin 256) : idx_main_v1 (ix2 b r) k = ix3 b r k :=
  funext fun a => by match a with | ⟨0, _⟩ => rfl | ⟨1, _⟩ => rfl | ⟨2, _⟩ => rfl
theorem idx_v9 (b : Fin 16) (r : Fin 4096) (k : Fin 256) : idx_main_v9 (ix2 b r) k = ix3 b r k :=
  funext fun a => by match a with | ⟨0, _⟩ => rfl | ⟨1, _⟩ => rfl | ⟨2, _⟩ => rfl
theorem idx_v17 (b : Fin 16) (r : Fin 4096) (k : Fin 256) : idx_main_v17 (ix2 b r) k = ix3 b r k :=
  funext fun a => by match a with | ⟨0, _⟩ => rfl | ⟨1, _⟩ => rfl | ⟨2, _⟩ => rfl
theorem idx_v2 (b : Fin 16) (r : Fin 4096) (z : Fin 1) : idx_main_v2 (ix3 b r z) = ix2 b r :=
  funext fun a => by match a with | ⟨0, _⟩ => rfl | ⟨1, _⟩ => rfl
theorem idx_v10 (b : Fin 16) (r : Fin 4096) (z : Fin 1) : idx_main_v10 (ix3 b r z) = ix2 b r :=
  funext fun a => by match a with | ⟨0, _⟩ => rfl | ⟨1, _⟩ => rfl
theorem idx_v6 (b : Fin 16) (r : Fin 4096) (k : Fin 256) : idx_main_v6 (ix3 b r k) = ix3 b r (0 : Fin 1) :=
  funext fun a => by match a with | ⟨0, _⟩ => rfl | ⟨1, _⟩ => rfl | ⟨2, _⟩ => rfl
theorem idx_v14 (b : Fin 16) (r : Fin 4096) (k : Fin 256) : idx_main_v14 (ix3 b r k) = ix3 b r (0 : Fin 1) :=
  funext fun a => by match a with | ⟨0, _⟩ => rfl | ⟨1, _⟩ => rfl | ⟨2, _⟩ => rfl

/-! ### The first argument's stages -/

/-- The first sum: the row's sum of squares (the initial value is 0). -/
theorem sumsq_a (A : Arr) (b : Fin 16) (r : Fin 4096) :
    val_main_v1 (F := Ideal) A (ix2 b r) = sqNorm (B := 16) (N := 4096) (D := 256) A b r := by
  rw [val_main_v1_apply]
  show Ideal.ofBits .f32 0x00000000#32 + _ = _
  rw [Ideal.ofBits_zero_f32, zero_add]
  unfold sqNorm
  refine Finset.sum_congr rfl fun k _ => ?_
  rw [idx_v1]
  rfl

/-- The reciprocal norm, kept on a unit last axis. -/
theorem inv_a (A : Arr) (b : Fin 16) (r : Fin 4096) (z : Fin 1) :
    val_main_v5 (F := Ideal) A (ix3 b r z) = invNorm (B := 16) (N := 4096) (D := 256) A b r := by
  rw [val_main_v5_apply, val_main_v4_apply, val_main_v2_apply, idx_v2, sumsq_a, val_main_v3_apply]
  rfl

/-- The first argument with every row scaled by its reciprocal norm. -/
theorem scaled_a (A : Arr) (b : Fin 16) (r : Fin 4096) (k : Fin 256) :
    val_main_v7 (F := Ideal) A (ix3 b r k) = A (ix3 b r k) * invNorm (B := 16) (N := 4096) (D := 256) A b r := by
  rw [val_main_v7_apply, val_main_v6_apply, idx_v6, inv_a]
  rfl

/-! ### The second argument's stages -/

theorem sumsq_b (Bm : Arr) (b : Fin 16) (r : Fin 4096) :
    val_main_v9 (F := Ideal) Bm (ix2 b r) = sqNorm (B := 16) (N := 4096) (D := 256) Bm b r := by
  rw [val_main_v9_apply]
  show Ideal.ofBits .f32 0x00000000#32 + _ = _
  rw [Ideal.ofBits_zero_f32, zero_add]
  unfold sqNorm
  refine Finset.sum_congr rfl fun k _ => ?_
  rw [idx_v9]
  rfl

theorem inv_b (Bm : Arr) (b : Fin 16) (r : Fin 4096) (z : Fin 1) :
    val_main_v13 (F := Ideal) Bm (ix3 b r z) = invNorm (B := 16) (N := 4096) (D := 256) Bm b r := by
  rw [val_main_v13_apply, val_main_v12_apply, val_main_v10_apply, idx_v10, sumsq_b, val_main_v11_apply]
  rfl

theorem scaled_b (Bm : Arr) (b : Fin 16) (r : Fin 4096) (k : Fin 256) :
    val_main_v15 (F := Ideal) Bm (ix3 b r k) = Bm (ix3 b r k) * invNorm (B := 16) (N := 4096) (D := 256) Bm b r := by
  rw [val_main_v15_apply, val_main_v14_apply, idx_v14, inv_b]
  rfl

/-! ### The result -/

/-- The reference's result at row (b, r) is the cosine of the two arguments' rows. -/
theorem result_row (A Bm : Arr) (b : Fin 16) (r : Fin 4096) :
    val_main_v17 (F := Ideal) A Bm (ix2 b r) = cosine (B := 16) (N := 4096) (D := 256) A Bm b r := by
  rw [val_main_v17_apply]
  show Ideal.ofBits .f32 0x00000000#32 + _ = _
  rw [Ideal.ofBits_zero_f32, zero_add]
  unfold cosine
  refine Finset.sum_congr rfl fun k _ => ?_
  rw [idx_v17, val_main_v16_apply, scaled_a, scaled_b]
  rfl

/-- The reference's result, as one function of its arguments. -/
theorem result_eq (A Bm : Arr) :
    val_main_v17 (F := Ideal) A Bm = fun i => cosine (B := 16) (N := 4096) (D := 256) A Bm (i 0) (i 1) := by
  funext i
  obtain ⟨b, r, rfl⟩ : ∃ (b : Fin 16) (r : Fin 4096), i = ix2 b r := ⟨i 0, i 1, eq_ix2 i⟩
  exact result_row A Bm b r

end Cert.ReferenceIdeal.Rows

end
-- ==== Proof.lean ====
/-
  Row cosines: `cos(b, r) = Σ_k (a(b, r, k) / ‖a(b, r, ·)‖) · (b(b, r, k) / ‖b(b, r, ·)‖)` for two arrays of shape
  [16, 4096, 256], where `1 / ‖x‖ = rsqrt (max (Σ_k x_k²) ε)` and ε is the float 1e-12 (Proof/RowCosine.lean).

  The kernel computes it on a 16 × 4 grid, each point taking 1024 rows of one batch and writing their cosines on a kept
  unit axis, which one reshape after the region drops; the reference computes it on the whole arrays. The two use the
  same operations in the same order, so at the ideal values they agree row by row with no algebra beyond `0 + s = s`
  (the host sum starts from 0); the precondition is never opened. What joins them is that a row's cosine reads that row
  only, so a block's rows give the whole arrays' cosines (Proof/ArrayRows.lean: the blocks cover the result).

    • Proof/RowCosine.lean        the function, and its locality;
    • Proof/LibRank3Keepdims.lean a last-axis sum with the axis kept, read at an index (general);
    • Proof/BlockRows.lean        what one grid point stores, row by row;
    • Proof/ArrayRows.lean        blocks to the array, the reshape after the region, the kernel's run read;
    • Proof/ReferenceRows.lean    the reference's stages read at a row.
  The three frames are the generated ones (the reference's is its generated run with the result dropped), and the
  idealization rewrote nothing, so `preserves` is trivial.
-/
import proofs.«153015_j70617852280973_1_alg».proof.Defs
import proofs.«153015_j70617852280973_1_alg».proof.Proof.Gen.Kernel
import proofs.«153015_j70617852280973_1_alg».proof.Proof.Gen.Kernel.Skeleton
import proofs.«153015_j70617852280973_1_alg».proof.Proof.Gen.Kernel.Launch
import proofs.«153015_j70617852280973_1_alg».proof.Proof.Gen.Kernel.Points
import proofs.«153015_j70617852280973_1_alg».proof.Proof.Gen.Kernel.Frame
import proofs.«153015_j70617852280973_1_alg».proof.Proof.Gen.KernelIdeal
import proofs.«153015_j70617852280973_1_alg».proof.Proof.Gen.KernelIdeal.Skeleton
import proofs.«153015_j70617852280973_1_alg».proof.Proof.Gen.KernelIdeal.Launch
import proofs.«153015_j70617852280973_1_alg».proof.Proof.Gen.KernelIdeal.Points
import proofs.«153015_j70617852280973_1_alg».proof.Proof.Gen.KernelIdeal.Frame
import proofs.«153015_j70617852280973_1_alg».proof.Proof.Gen.ReferenceIdeal
import proofs.«153015_j70617852280973_1_alg».proof.Proof.Gen.Pre_finite_inputs
import proofs.«153015_j70617852280973_1_alg».proof.Proof.Gen.ReferenceIdeal.Run
import proofs.«153015_j70617852280973_1_alg».proof.Proof.Gen.ReferenceIdeal.Read
import Idealize.ShloMosaic.Adequacy
import Idealize.ShloMosaic.Init
import proofs.«153015_j70617852280973_1_alg».proof.Proof.ArrayRows
import proofs.«153015_j70617852280973_1_alg».proof.Proof.ReferenceRows

noncomputable section

namespace Cert.Proof

open Idealize.ShloMosaic Idealize.SL.Sem

/-- At the ideal values both programs, from memories agreeing on the arguments, end with the row cosines of the
    arguments: the kernel by its run read block by block, the reference by its stages read at a row. -/
theorem algebraic : Cert.algebraic_KernelIdeal_ReferenceIdeal := by
  intro m ρ m' ρ' _ hagree
  refine ⟨fun c => Cert.KernelIdeal.ArrayRows.rowsOf
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.ArrayRows.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Rows.result_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
